-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S2x200000 32) (main_arg3 : FVec F S128x256 .f32) (main_arg4 : FVec F S256 .f32) (main_arg5 : FVec F S256x256 .f32) (main_arg6 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S128x256 : Shape := ⟨2, ![128, 256]⟩
abbrev S256 : Shape := ⟨1, ![256]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩
abbrev S5000x1 : Shape := ⟨2, ![5000, 1]⟩
abbrev S5000 : Shape := ⟨1, ![5000]⟩

abbrev nBuf : Space → Nat
  | .hbm => 114
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x200000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x256, .f32⟩
  | .hbm, ⟨80, _⟩ => ⟨S850000x1, .f32⟩
  | .hbm, ⟨81, _⟩ => ⟨S850000x256, .f32⟩
  | .hbm, ⟨82, _⟩ => ⟨S850000x256, .f32⟩
  | .hbm, ⟨83, _⟩ => ⟨S_, .f32⟩
  | .hbm, ⟨84, _⟩ => ⟨S50000x256, .f32⟩
  | .hbm, ⟨85, _⟩ => ⟨S850000x1, .i32⟩
  | .hbm, ⟨86, _⟩ => ⟨S50000x256, .f32⟩
  | .hbm, ⟨87, _⟩ => ⟨S1x256, .f32⟩
  | .hbm, ⟨88, _⟩ => ⟨S50000x256, .f32⟩
  | .hbm, ⟨89, _⟩ => ⟨S50000x256, .f32⟩
  | .hbm, ⟨90, _⟩ => ⟨S1x200000, .i32⟩
  | .hbm, ⟨91, _⟩ => ⟨S200000, .i32⟩
  | .hbm, ⟨92, _⟩ => ⟨S_, .i32⟩
  | .hbm, ⟨93, _⟩ => ⟨S200000, .i32⟩
  | .hbm, ⟨94, _⟩ => ⟨S200000, .i1⟩
  | .hbm, ⟨95, _⟩ => ⟨S_, .i32⟩
  | .hbm, ⟨96, _⟩ => ⟨S200000, .i32⟩
  | .hbm, ⟨97, _⟩ => ⟨S200000, .i32⟩
  | .hbm, ⟨98, _⟩ => ⟨S200000, .i32⟩
  | .hbm, ⟨99, _⟩ => ⟨S200000x1, .i32⟩
  | .hbm, ⟨100, _⟩ => ⟨S200000x256, .f32⟩
  | .hbm, ⟨101, _⟩ => ⟨S1x200000, .i32⟩
  | .hbm, ⟨102, _⟩ => ⟨S200000, .i32⟩
  | .hbm, ⟨103, _⟩ => ⟨S_, .i32⟩
  | .hbm, ⟨104, _⟩ => ⟨S200000, .i32⟩
  | .hbm, ⟨105, _⟩ => ⟨S200000, .i1⟩
  | .hbm, ⟨106, _⟩ => ⟨S_, .i32⟩
  | .hbm, ⟨107, _⟩ => ⟨S200000, .i32⟩
  | .hbm, ⟨108, _⟩ => ⟨S200000, .i32⟩
  | .hbm, ⟨109, _⟩ => ⟨S200000, .i32⟩
  | .hbm, ⟨110, _⟩ => ⟨S200000x1, .i32⟩
  | .hbm, ⟨111, _⟩ => ⟨S200000x256, .f32⟩
  | .hbm, ⟨112, _⟩ => ⟨S200000x1, .f32⟩
  | .hbm, ⟨113, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x1, .f32⟩
  | .local _ .vmem, ⟨15, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_14 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reduces_S5000x256_S5000 : S5000x256.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  gather_S50000x256_S200000x1_S200000x256_1_0_n_n_0_1_1256_wf : GatherDims.WF S50000x256 S200000x1 S200000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S200000x256.size a
  hwx2_0 : ∀ i : grid2.Coords, EltTy.bits .f32 = 32 ∨ (Rect.block (s := S200000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S200000x256.size a
  hwx2_1 : ∀ i : grid2.Coords, EltTy.bits .f32 = 32 ∨ (Rect.block (s := S200000x256) S5000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S200000x1.size a
  hwx2_2 : ∀ i : grid2.Coords, EltTy.bits .f32 = 32 ∨ (Rect.block (s := S200000x1) S5000x1.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v73) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v82) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v83) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S128x256 : Shape := ⟨2, ![128, 256]⟩
abbrev S256 : Shape := ⟨1, ![256]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x200000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x256, .f32⟩
  | .hbm, ⟨80, _⟩ => ⟨S850000x1, .f32⟩
  | .hbm, ⟨81, _⟩ => ⟨S850000x256, .f32⟩
  | .hbm, ⟨82, _⟩ => ⟨S850000x256, .f32⟩
  | .hbm, ⟨83, _⟩ => ⟨S_, .f32⟩
  | .hbm, ⟨84, _⟩ => ⟨S50000x256, .f32⟩
  | .hbm, ⟨85, _⟩ => ⟨S850000x1, .i32⟩
  | .hbm, ⟨86, _⟩ => ⟨S50000x256, .f32⟩
  | .hbm, ⟨87, _⟩ => ⟨S1x256, .f32⟩
  | .hbm, ⟨88, _⟩ => ⟨S50000x256, .f32⟩
  | .hbm, ⟨89, _⟩ => ⟨S50000x256, .f32⟩
  | .hbm, ⟨90, _⟩ => ⟨S1x200000, .i32⟩
  | .hbm, ⟨91, _⟩ => ⟨S200000, .i32⟩
  | .hbm, ⟨92, _⟩ => ⟨S_, .i32⟩
  | .hbm, ⟨93, _⟩ => ⟨S200000, .i32⟩
  | .hbm, ⟨94, _⟩ => ⟨S200000, .i1⟩
  | .hbm, ⟨95, _⟩ => ⟨S_, .i32⟩
  | .hbm, ⟨96, _⟩ => ⟨S200000, .i32⟩
  | .hbm, ⟨97, _⟩ => ⟨S200000, .i32⟩
  | .hbm, ⟨98, _⟩ => ⟨S200000, .i32⟩
  | .hbm, ⟨99, _⟩ => ⟨S200000x1, .i32⟩
  | .hbm, ⟨100, _⟩ => ⟨S200000x256, .f32⟩
  | .hbm, ⟨101, _⟩ => ⟨S1x200000, .i32⟩
  | .hbm, ⟨102, _⟩ => ⟨S200000, .i32⟩
  | .hbm, ⟨103, _⟩ => ⟨S_, .i32⟩
  | .hbm, ⟨104, _⟩ => ⟨S200000, .i32⟩
  | .hbm, ⟨105, _⟩ => ⟨S200000, .i1⟩
  | .hbm, ⟨106, _⟩ => ⟨S_, .i32⟩
  | .hbm, ⟨107, _⟩ => ⟨S200000, .i32⟩
  | .hbm, ⟨108, _⟩ => ⟨S200000, .i32⟩
  | .hbm, ⟨109, _⟩ => ⟨S200000, .i32⟩
  | .hbm, ⟨110, _⟩ => ⟨S200000x1, .i32⟩
  | .hbm, ⟨111, _⟩ => ⟨S200000x256, .f32⟩
  | .hbm, ⟨112, _⟩ => ⟨S200000x256, .f32⟩
  | .hbm, ⟨113, _⟩ => ⟨S_, .f32⟩
  | .hbm, ⟨114, _⟩ => ⟨S200000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_14 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_16 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x256_S200000_d1 : S200000x256.ReducesTo [1] S200000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  gather_S50000x256_S200000x1_S200000x256_1_0_n_n_0_1_1256_wf : GatherDims.WF S50000x256 S200000x1 S200000x256 [1] [0] [] [0] [] 1 ![1, 256]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf

class Facts : Prop extends Facts₀ where

variable [Facts]
-- ==== Proof.Mm0.lean ====
/-
  The first dense layer's product, read off the pipeline.

  The grid has ten points; point t multiplies rows 5000·t … 5000·t + 4999 of the node features by the whole weight
  matrix and writes the 5000 × 256 result to the same rows of the output.  Over the extended reals the narrowing of
  both operands to sixteen bits is the identity and the product into a zero accumulator is the plain sum over the
  128 input channels, so each written block is that block of the one matrix product of the two whole arrays; the ten
  blocks tile the output, which therefore ends holding the whole product.
-/
import proofs.«162515_j41781441855493_1_alg».proof.Proof.Gen.KernelIdeal.Frame
import proofs.«162515_j41781441855493_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open scoped BigOperators

/-! ## The two contractions, re-indexed by the input channel -/

/-- The block product's left index keeps the output's row. -/
theorem blockDot0_lhs_0 (j : S5000x256.Idx) (q : dot_S5000x128_S128x256_S5000x256_1_0_0_1_n_n.contr.Idx) :
    (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- The block product's left index takes the contraction position on the channel axis. -/
theorem blockDot0_lhs_1 (j : S5000x256.Idx) (q : dot_S5000x128_S128x256_S5000x256_1_0_0_1_n_n.contr.Idx) :
    (dot_S5000x128_S128x256_S5000x256_1_0_0_1_n_n.lhsIdx j q 1).val = (q ⟨0, by decide⟩).val :=
  dot_S5000x128_S128x256_S5000x256_1_0_0_1_n_n.lhsIdx_val_of_single rfl j q
/-- The block product's right index takes the contraction position on the channel axis. -/
theorem blockDot0_rhs_0 (j : S5000x256.Idx) (q : dot_S5000x128_S128x256_S5000x256_1_0_0_1_n_n.contr.Idx) :
    (dot_S5000x128_S128x256_S5000x256_1_0_0_1_n_n.rhsIdx j q 0).val = (q ⟨0, by decide⟩).val :=
  dot_S5000x128_S128x256_S5000x256_1_0_0_1_n_n.rhsIdx_val_of_single rfl j q
/-- The block product's right index keeps the output's column. -/
theorem blockDot0_rhs_1 (j : S5000x256.Idx) (q : dot_S5000x128_S128x256_S5000x256_1_0_0_1_n_n.contr.Idx) :
    (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The whole product's left index keeps the output's row. -/
theorem wholeDot0_lhs_0 (i : S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin S50000x128.rank) ∈ Cert.ReferenceIdeal.dot_S50000x128_S128x256_S50000x256_1_0_0_1_n_n.lhsBatch by decide), dif_pos (show (0 : Fin S50000x128.rank) ∈ Cert.ReferenceIdeal.dot_S50000x128_S128x256_S50000x256_1_0_0_1_n_n.lhsNonContracting by decide)]
  rfl
/-- The whole product's left index takes the contraction position on the channel axis. -/
theorem wholeDot0_lhs_1 (i : S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
/-- The whole product's right index takes the contraction position on the channel axis. -/
theorem wholeDot0_rhs_0 (i : S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
/-- The whole product's right index keeps the output's column. -/
theorem wholeDot0_rhs_1 (i : S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin S128x256.rank) ∈ Cert.ReferenceIdeal.dot_S50000x128_S128x256_S50000x256_1_0_0_1_n_n.rhsBatch by decide), dif_pos (show (1 : Fin S128x256.rank) ∈ Cert.ReferenceIdeal.dot_S50000x128_S128x256_S50000x256_1_0_0_1_n_n.rhsNonContracting by decide)]
  rfl

/-- The body's payload at an entry of its block: the narrowings are the identity over the extended reals and the
    product into the zero accumulator is the sum over the 128 input channels. -/
theorem pay0_apply (x : Vec Ideal S5000x128 .f32) (w : Vec Ideal S128x256 .f32) (p : Fin 5000) (q : Fin 256) :
    k0_pay1 (F := Ideal) x w (ValueIdx.ix2 p q) = ∑ k : Fin 128, x (ValueIdx.ix2 p k) * w (ValueIdx.ix2 k q) := by
  unfold k0_pay1
  show FloatOps.matmul dot_S5000x128_S128x256_S5000x256_1_0_0_1_n_n none (truncf (F := Ideal) .bf16 x bitsLt_bf16_f32) (truncf (F := Ideal) .bf16 w bitsLt_bf16_f32) (constant (F := Ideal) S5000x256 .f32 0x00000000#32) (ValueIdx.ix2 p q) = _
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ValueIdx.ix2 p q) ((ValueIdx.contrEquiv1 dot_S5000x128_S128x256_S5000x256_1_0_0_1_n_n 128 rfl rfl).symm k) = ValueIdx.ix2 p k := funext fun a => Fin.ext (by
    match a with
    | ⟨0, _⟩ => exact blockDot0_lhs_0 _ _
    | ⟨1, _⟩ => exact (blockDot0_lhs_1 _ _).trans hk)
  have er : dot_S5000x128_S128x256_S5000x256_1_0_0_1_n_n.rhsIdx (ValueIdx.ix2 p q) ((ValueIdx.contrEquiv1 dot_S5000x128_S128x256_S5000x256_1_0_0_1_n_n 128 rfl rfl).symm k) = ValueIdx.ix2 k q := funext fun a => Fin.ext (by
    match a with
    | ⟨0, _⟩ => exact (blockDot0_rhs_0 _ _).trans hk
    | ⟨1, _⟩ => exact blockDot0_rhs_1 _ _)
  rw [el, er]
  rfl

/-- The whole product of a 50000 × 128 array by a 128 × 256 array. -/
abbrev wholeProduct0 (a : FVec Ideal S50000x128 .f32) (w : FVec Ideal S128x256 .f32) : FVec Ideal S50000x256 .f32 :=
  Host.dotGeneral (F := Ideal) (φ₁ := .f32) (φ₂ := .f32) Cert.ReferenceIdeal.dot_S50000x128_S128x256_S50000x256_1_0_0_1_n_n none a w

/-- The whole product at an entry: the same sum over the 128 input channels. -/
theorem wholeProduct0_apply (a : FVec Ideal S50000x128 .f32) (w : FVec Ideal S128x256 .f32) (r : Fin 50000) (q : Fin 256) :
    wholeProduct0 a w (ValueIdx.ix2 r q) = ∑ k : Fin 128, a (ValueIdx.ix2 r k) * w (ValueIdx.ix2 k q) := by
  simp only [wholeProduct0, Host.dotGeneral]
  rw [Ideal.dotGeneral_apply, ← Equiv.sum_comp (ValueIdx.contrEquiv1 Cert.ReferenceIdeal.dot_S50000x128_S128x256_S50000x256_1_0_0_1_n_n 128 rfl rfl).symm]
  refine Finset.sum_congr rfl fun k _ => ?_
  have hk := ValueIdx.contrEquiv1_symm_val Cert.ReferenceIdeal.dot_S50000x128_S128x256_S50000x256_1_0_0_1_n_n 128 rfl rfl k
  have el : Cert.ReferenceIdeal.dot_S50000x128_S128x256_S50000x256_1_0_0_1_n_n.lhsIdx (ValueIdx.ix2 r q) ((ValueIdx.contrEquiv1 Cert.ReferenceIdeal.dot_S50000x128_S128x256_S50000x256_1_0_0_1_n_n 128 rfl rfl).symm k) = ValueIdx.ix2 r k := funext fun a => Fin.ext (by
    match a with
    | ⟨0, _⟩ => exact wholeDot0_lhs_0 _ _
    | ⟨1, _⟩ => exact (wholeDot0_lhs_1 _ _).trans hk)
  have er : Cert.ReferenceIdeal.dot_S50000x128_S128x256_S50000x256_1_0_0_1_n_n.rhsIdx (ValueIdx.ix2 r q) ((ValueIdx.contrEquiv1 Cert.ReferenceIdeal.dot_S50000x128_S128x256_S50000x256_1_0_0_1_n_n 128 rfl rfl).symm k) = ValueIdx.ix2 k q := funext fun a => Fin.ext (by
    match a with
    | ⟨0, _⟩ => exact (wholeDot0_rhs_0 _ _).trans hk
    | ⟨1, _⟩ => exact wholeDot0_rhs_1 _ _)
  rw [el, er]

/-! ## Each written block is that block of the whole product -/

theorem origin0 : (![0, 0] : Fin 2 → Nat) = fun _ => 0 := funext fun a => by fin_cases a <;> rfl

/-- The grid has ten points. -/
theorem point0_lt (t : Fin cfg0.N) : t.val < 10 := lt_of_lt_of_eq t.isLt N_0

/-- Row `p` of the block of point `t` is row `5000·t + p` of the arrays. -/
def rowOf0 (t : Fin cfg0.N) (p : Fin 5000) : Fin 50000 :=
  ⟨t.val * 5000 + p.val, by have := point0_lt t; have := p.isLt; omega⟩

/-- The block indices over the grid: the feature and output windows step down the rows with the point, on the one
    column block; the weight window stays on its one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Where an entry of point `t`'s feature block sits in the feature array. -/
theorem emb0_features (t : Fin cfg0.N) (p : Fin 5000) (k : Fin 128) :
    ((cfg0.win 0).blk t).view.emb (ValueIdx.ix2 p k) = ValueIdx.ix2 (rowOf0 t p) k := by
  obtain ⟨e0, e1, -, -, -, -⟩ := blockIndex0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block is the weight matrix. -/
theorem emb0_weights (t : Fin cfg0.N) (k : Fin 128) (q : Fin 256) :
    ((cfg0.win 1).blk t).view.emb (ValueIdx.ix2 k q) = ValueIdx.ix2 k q := by
  obtain ⟨-, -, e2, e3, -, -⟩ := blockIndex0 t
  funext a; apply Fin.ext
  match a with
  | ⟨0, _⟩ => show win0_1.index t (0 : Fin 2) * 128 + 1 * k.val = k.val; omega
  | ⟨1, _⟩ => show win0_1.index t (1 : Fin 2) * 256 + 1 * q.val = q.val; omega

/-- Where an entry of point `t`'s output block sits in the output array. -/
theorem emb0_output (t : Fin cfg0.N) (p : Fin 5000) (q : Fin 256) :
    ((cfg0.win 2).blk t).view.emb (ValueIdx.ix2 p q) = ValueIdx.ix2 (rowOf0 t p) q := by
  obtain ⟨-, -, -, -, e4, e5⟩ := blockIndex0 t
  funext a; apply Fin.ext
  match a with
  | ⟨0, _⟩ => show win0_2.index t (0 : Fin 2) * 5000 + 1 * p.val = t.val * 5000 + p.val; omega
  | ⟨1, _⟩ => show win0_2.index t (1 : Fin 2) * 256 + 1 * q.val = q.val; omega

/-- A block product of rows `5000·t …` of `A` by `W` is those rows of the whole product. -/
theorem block0_eq (A : FVec Ideal S50000x128 .f32) (W : FVec Ideal S128x256 .f32) (t : Fin cfg0.N)
    (x : Vec Ideal S5000x128 .f32) (w : Vec Ideal S128x256 .f32)
    (hx : ∀ (p : Fin 5000) (k : Fin 128), x (ValueIdx.ix2 p k) = A (ValueIdx.ix2 (rowOf0 t p) k))
    (hw : ∀ (k : Fin 128) (q : Fin 256), w (ValueIdx.ix2 k q) = W (ValueIdx.ix2 k q)) (p : Fin 5000) (q : Fin 256) :
    k0_pay1 (F := Ideal) x w (ValueIdx.ix2 p q) = wholeProduct0 A W (ValueIdx.ix2 (rowOf0 t p) q) := by
  rw [pay0_apply, wholeProduct0_apply]
  exact Finset.sum_congr rfl fun k _ => by rw [hx, hw]

/-- What point `t` writes back is block `t` of the whole product of the two arrays the region finds. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (wholeProduct0 (V c main_arg0) (V c main_arg3)) := by
  show (cfg0.win 2).cut (grid0.coords t) ((dat0 (F := Ideal) V c).after 2 t) = _
  rw [after0_2]
  unfold out0_2
  rw [View.canon_unit_zero origin0]
  simp only [View.ld_unit_zero (S := S5000x128) origin0, View.ld_unit_zero (S := S128x256) origin0]
  funext j
  obtain ⟨p, q, rfl⟩ : ∃ (p : Fin 5000) (q : Fin 256), j = ValueIdx.ix2 p q := ⟨j 0, j 1, ValueIdx.eq_ix2 j⟩
  show k0_pay1 (F := Ideal) (iblk0 V c 0 t) (iblk0 V c 1 t) (ValueIdx.ix2 p q)
    = wholeProduct0 (V c main_arg0) (V c main_arg3) (((cfg0.win 2).blk t).view.emb (ValueIdx.ix2 p q))
  refine (block0_eq (V c main_arg0) (V c main_arg3) t (iblk0 V c 0 t) (iblk0 V c 1 t) (fun p k => ?_) (fun k q => ?_) p q).trans
    (congrArg (wholeProduct0 (V c main_arg0) (V c main_arg3)) (emb0_output t p q).symm)
  · show V c main_arg0 (((cfg0.win 0).blk t).view.emb (ValueIdx.ix2 p k)) = _
    exact congrArg (V c main_arg0) (emb0_features t p k)
  · show V c main_arg3 (((cfg0.win 1).blk t).view.emb (ValueIdx.ix2 k q)) = _
    exact congrArg (V c main_arg3) (emb0_weights t k q)

/-! ## The ten blocks tile the output -/

/-- An index of the output array is in point `t`'s block iff each coordinate is in the block's range on its axis. -/
theorem mem_block0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- Row `r` of the output lies in the block of point `r / 5000`. -/
theorem covered0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, e4, e5⟩ := blockIndex0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- Region 0's output array after its run is the matrix product of the two arrays the region finds at its operands. -/
theorem arr0 (V : (c : Dev nD) → (b : Ref sig .tc) → Buf (Elt Ideal) ((c : Thread nD τ).loc b)) (c : Dev nD) :
    @Eq (FVec Ideal S50000x256 .f32) ((dat0 (F := Ideal) V c).arrAt 2 cfg0.N)
      (Host.dotGeneral (φ₁ := .f32) (φ₂ := .f32) Cert.ReferenceIdeal.dot_S50000x128_S128x256_S50000x256_1_0_0_1_n_n none
          (V c main_arg0 : FVec Ideal S50000x128 .f32) (V c main_arg3 : FVec Ideal S128x256 .f32)) :=
  (dat0 (F := Ideal) V c).arrAt_eq_of_cover 2 (wholeProduct0 (V c main_arg0) (V c main_arg3)) (fun t _ => flushed0_eq V c t) covered0

end Cert.KernelIdeal.Val

end
-- ==== Proof.Mm1.lean ====
/-
  The second dense layer's product, read off the pipeline.

  The grid has ten points; point t multiplies rows 5000·t … 5000·t + 4999 of the hidden features by the whole 256 × 256
  weight matrix and writes the 5000 × 256 result to the same rows of the output.  Over the extended reals the narrowing
  of both operands to sixteen bits is the identity and the product into a zero accumulator is the plain sum over the
  256 hidden channels, so each written block is that block of the one matrix product of the two whole arrays; the ten
  blocks tile the output, which therefore ends holding the whole product.
-/
import proofs.«162515_j41781441855493_1_alg».proof.Proof.Gen.KernelIdeal.Frame
import proofs.«162515_j41781441855493_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open scoped BigOperators

/-! ## The two dimension records: rows × contraction times contraction × columns -/

/-- The block product's left operand is read on the output's row … -/
theorem blockDot_lhs_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- … at the contraction index; -/
theorem blockDot_lhs_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- its right operand at the contraction index … -/
theorem blockDot_rhs_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- … on the output's column. -/
theorem blockDot_rhs_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The whole product's left operand is read on the output's row … -/
theorem wholeDot_lhs_0 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x256_S50000x256_1_0_0_1_n_n.lhsBatch by decide), dif_pos (show (0 : Fin Cert.ReferenceIdeal.S50000x256.rank) ∈ Cert.ReferenceIdeal.dot_S50000x256_S256x256_S50000x256_1_0_0_1_n_n.lhsNonContracting by decide)]
  rfl
/-- … at the contraction index; -/
theorem wholeDot_lhs_1 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
/-- its right operand at the contraction index … -/
theorem wholeDot_rhs_0 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
/-- … on the output's column. -/
theorem wholeDot_rhs_1 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin Cert.ReferenceIdeal.S256x256.rank) ∈ Cert.ReferenceIdeal.dot_S50000x256_S256x256_S50000x256_1_0_0_1_n_n.rhsBatch by decide), dif_pos (show (1 : Fin Cert.ReferenceIdeal.S256x256.rank) ∈ Cert.ReferenceIdeal.dot_S50000x256_S256x256_S50000x256_1_0_0_1_n_n.rhsNonContracting by decide)]
  rfl

/-! ## Both products at an index: the sum over the 256 hidden channels -/

/-- The whole product of a 50000 × 256 array and a 256 × 256 matrix at row `r`, column `q`. -/
theorem wholeDot_apply (l : FVec Ideal S50000x256 .f32) (w : FVec Ideal S256x256 .f32) (r : Fin 50000) (q : Fin 256) :
    Host.dotGeneral (F := Ideal) (φ₁ := .f32) (φ₂ := .f32) Cert.ReferenceIdeal.dot_S50000x256_S256x256_S50000x256_1_0_0_1_n_n none l w (ValueIdx.ix2 r q)
      = ∑ k : Fin 256, l (ValueIdx.ix2 r k) * w (ValueIdx.ix2 k q) := by
  simp only [Host.dotGeneral]
  rw [Ideal.dotGeneral_apply, ← Equiv.sum_comp (ValueIdx.contrEquiv1 Cert.ReferenceIdeal.dot_S50000x256_S256x256_S50000x256_1_0_0_1_n_n 256 rfl rfl).symm]
  refine Finset.sum_congr rfl fun k _ => ?_
  have hk := ValueIdx.contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ValueIdx.ix2 r q) ((ValueIdx.contrEquiv1 Cert.ReferenceIdeal.dot_S50000x256_S256x256_S50000x256_1_0_0_1_n_n 256 rfl rfl).symm k) = ValueIdx.ix2 r k := funext fun a => Fin.ext (by
    match a with
    | ⟨0, _⟩ => exact wholeDot_lhs_0 _ _
    | ⟨1, _⟩ => exact (wholeDot_lhs_1 _ _).trans hk)
  have er : Cert.ReferenceIdeal.dot_S50000x256_S256x256_S50000x256_1_0_0_1_n_n.rhsIdx (ValueIdx.ix2 r q) ((ValueIdx.contrEquiv1 Cert.ReferenceIdeal.dot_S50000x256_S256x256_S50000x256_1_0_0_1_n_n 256 rfl rfl).symm k) = ValueIdx.ix2 k q := funext fun a => Fin.ext (by
    match a with
    | ⟨0, _⟩ => exact (wholeDot_rhs_0 _ _).trans hk
    | ⟨1, _⟩ => exact wholeDot_rhs_1 _ _)
  rw [el, er]

/-- The body's payload at row `p`, column `q` of the block: narrowing is the identity over the extended reals, the cast
    is of a shape to itself, and the product into the zero accumulator is the sum over the contraction index. -/
theorem pay_apply (x : Vec Ideal S5000x256 .f32) (w : Vec Ideal S256x256 .f32) (p : Fin 5000) (q : Fin 256) :
    k1_pay1 (F := Ideal) x w (ValueIdx.ix2 p q) = ∑ k : Fin 256, x (ValueIdx.ix2 p k) * w (ValueIdx.ix2 k q) := by
  unfold k1_pay1
  rw [shapeCast_self]
  show FloatOps.matmul (F := Ideal) dot_S5000x256_S256x256_S5000x256_1_0_0_1_n_n none (truncf (F := Ideal) .bf16 x bitsLt_bf16_f32) (truncf (F := Ideal) .bf16 w bitsLt_bf16_f32) (constant (F := Ideal) S5000x256 .f32 0x00000000#32) (ValueIdx.ix2 p q) = _
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ValueIdx.ix2 p q) ((ValueIdx.contrEquiv1 dot_S5000x256_S256x256_S5000x256_1_0_0_1_n_n 256 rfl rfl).symm k) = ValueIdx.ix2 p k := funext fun a => Fin.ext (by
    match a with
    | ⟨0, _⟩ => exact blockDot_lhs_0 _ _
    | ⟨1, _⟩ => exact (blockDot_lhs_1 _ _).trans hk)
  have er : dot_S5000x256_S256x256_S5000x256_1_0_0_1_n_n.rhsIdx (ValueIdx.ix2 p q) ((ValueIdx.contrEquiv1 dot_S5000x256_S256x256_S5000x256_1_0_0_1_n_n 256 rfl rfl).symm k) = ValueIdx.ix2 k q := funext fun a => Fin.ext (by
    match a with
    | ⟨0, _⟩ => exact (blockDot_rhs_0 _ _).trans hk
    | ⟨1, _⟩ => exact blockDot_rhs_1 _ _)
  rw [el, er]
  rfl

/-! ## From the blocks to the array -/

/-- The origin of a rank-2 array. -/
theorem origin2 : (![0, 0] : Fin 2 → Nat) = fun _ => 0 := funext fun a => by fin_cases a <;> rfl

/-- The matrix product of the two arrays the region finds at its operands. -/
abbrev product (V : (c : Dev nD) → (b : Ref sig .tc) → Buf (Elt Ideal) ((c : Thread nD τ).loc b)) (c : Dev nD) : FVec Ideal S50000x256 .f32 :=
  Host.dotGeneral (F := Ideal) (φ₁ := .f32) (φ₂ := .f32) Cert.ReferenceIdeal.dot_S50000x256_S256x256_S50000x256_1_0_0_1_n_n none
    (V c main_v47 : FVec Ideal S50000x256 .f32) (V c main_arg5 : FVec Ideal S256x256 .f32)

/-- A 5000-row block of the product: when the left block holds rows `5000·t + p` of the left array and the right block
    is the whole matrix, the body's payload at `(p, q)` is the whole product at `(5000·t + p, q)`. -/
theorem pay_eq_product (l : FVec Ideal S50000x256 .f32) (w : FVec Ideal S256x256 .f32)
    (x : Vec Ideal S5000x256 .f32) (y : Vec Ideal S256x256 .f32) (t : ℕ) (ht : t < 10)
    (hx : ∀ (p : Fin 5000) (k : Fin 256) (h : t * 5000 + p.val < 50000), x (ValueIdx.ix2 p k) = l (ValueIdx.ix2 (⟨t * 5000 + p.val, h⟩ : Fin 50000) k))
    (hy : ∀ (k q : Fin 256), y (ValueIdx.ix2 k q) = w (ValueIdx.ix2 k q))
    (p : Fin 5000) (q : Fin 256) (h : t * 5000 + p.val < 50000) :
    k1_pay1 (F := Ideal) x y (ValueIdx.ix2 p q)
      = Host.dotGeneral (F := Ideal) (φ₁ := .f32) (φ₂ := .f32) Cert.ReferenceIdeal.dot_S50000x256_S256x256_S50000x256_1_0_0_1_n_n none l w (ValueIdx.ix2 (⟨t * 5000 + p.val, h⟩ : Fin 50000) q) := by
  rw [pay_apply, wholeDot_apply]
  exact Finset.sum_congr rfl fun k _ => by rw [hx p k h, hy k q]

/-- The windows' index maps over the ten grid points: point `t` reads block row `t` of the left array and the one block of
    the matrix, and writes block row `t` of the output. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (product V c) := by
  show (cfg1.win 2).cut (grid1.coords t) ((dat1 (F := Ideal) V c).after 2 t) = _
  rw [after1_2]
  unfold out1_2
  rw [View.canon_unit_zero origin2]
  simp only [View.ld_unit_zero (S := S5000x256) origin2, View.ld_unit_zero (S := S256x256) origin2]
  obtain ⟨e00, e01, e10, e11, e20, e21⟩ := block_indices t
  have ht : t.val < 10 := lt_of_lt_of_eq t.isLt N_1
  funext j
  obtain ⟨p, q, rfl⟩ : ∃ (p : Fin 5000) (q : Fin 256), j = ValueIdx.ix2 p q := ⟨j 0, j 1, ValueIdx.eq_ix2 j⟩
  have hrow : t.val * 5000 + p.val < 50000 := by have hp := p.isLt; omega
  show k1_pay1 (F := Ideal) (iblk1 V c 0 t) (iblk1 V c 1 t) (ValueIdx.ix2 p q) = product V c (((cfg1.win 2).blk t).view.emb (ValueIdx.ix2 p q))
  have hout : ((cfg1.win 2).blk t).view.emb (ValueIdx.ix2 p q) = ValueIdx.ix2 (⟨t.val * 5000 + p.val, hrow⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 256 + 1 * q.val = q.val; omega
  refine Eq.trans ?_ (congrArg (product V c) hout).symm
  refine pay_eq_product (V c main_v47) (V c main_arg5) (iblk1 V c 0 t) (iblk1 V c 1 t) t.val ht ?_ ?_ p q hrow
  · intro p k h
    show V c main_v47 (((cfg1.win 0).blk t).view.emb (ValueIdx.ix2 p k)) = V c main_v47 (ValueIdx.ix2 (⟨t.val * 5000 + p.val, h⟩ : Fin 50000) k)
    refine congrArg (V c main_v47) ?_
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  · intro k q
    show V c main_arg5 (((cfg1.win 1).blk t).view.emb (ValueIdx.ix2 k q)) = V c main_arg5 (ValueIdx.ix2 k q)
    refine congrArg (V c main_arg5) ?_
    funext a; apply Fin.ext
    match a with
    | ⟨0, _⟩ => show win1_1.index t (0 : Fin 2) * 256 + 1 * k.val = k.val; omega
    | ⟨1, _⟩ => show win1_1.index t (1 : Fin 2) * 256 + 1 * q.val = q.val; omega

/-- An index of the output is in point `t`'s block iff each coordinate is in the block's range on its axis. -/
theorem mem_block1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v48).slice (win1_2.rect t)).set ↔ _
  rw [View.set_slice_whole, Rect.mem_set_unit]
  exact Iff.rfl

/-- The ten blocks of 5000 rows cover the 50000 rows: row `r` is in the block of point `r / 5000`. -/
theorem rows_covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hlt : (i 0).val / 5000 < cfg1.N := lt_of_lt_of_eq (by omega : (i 0).val / 5000 < 10) N_1.symm
  obtain ⟨-, -, -, -, e20, e21⟩ := block_indices ⟨(i 0).val / 5000, hlt⟩
  have e20' : win1_2.index ⟨(i 0).val / 5000, hlt⟩ (0 : Fin 2) = (i 0).val / 5000 := e20
  refine ⟨⟨(i 0).val / 5000, hlt⟩, flush1_2 _, ?_⟩
  rw [mem_block1]
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 256 ≤ (i 1).val ∧ (i 1).val < win1_2.index ⟨(i 0).val / 5000, hlt⟩ (1 : Fin 2) * 256 + 256; omega

/-- Region 1's output array after its run is the matrix product of the two arrays the region finds at its operands. -/
theorem arr1 (V : (c : Dev nD) → (b : Ref sig .tc) → Buf (Elt Ideal) ((c : Thread nD τ).loc b)) (c : Dev nD) :
    @Eq (FVec Ideal S50000x256 .f32) ((dat1 (F := Ideal) V c).arrAt 2 cfg1.N)
      (Host.dotGeneral (φ₁ := .f32) (φ₂ := .f32) Cert.ReferenceIdeal.dot_S50000x256_S256x256_S50000x256_1_0_0_1_n_n none
          (V c main_v47 : FVec Ideal S50000x256 .f32) (V c main_arg5 : FVec Ideal S256x256 .f32)) :=
  (dat1 (F := Ideal) V c).arrAt_eq_of_cover 2 (product V c) (fun t _ => flushed_eq V c t) rows_covered

end Cert.KernelIdeal.Val

end
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.Dec.lean ====
/-
  The edge scores, read off the pipeline.

  The grid has forty points; point t takes rows 5000·t … 5000·t + 4999 of the two gathered 200000 × 256 embedding
  arrays, multiplies them entry by entry and sums each row over its 256 channels, writing the 5000 row sums as a column
  to the same rows of the 200000 × 1 output.  Each written block is that block of the one column of row-wise inner
  products of the two whole arrays; the forty blocks tile the output, which therefore ends holding that column.
-/
import proofs.«162515_j41781441855493_1_alg».proof.Proof.Gen.KernelIdeal.Frame
import proofs.«162515_j41781441855493_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open scoped BigOperators

/-- Entry (r, k) of a 200000 × 256 array, named from a position of the 200000 × 1 column and a channel. -/
abbrev rowChan (j : S200000x1.Idx) (k : Fin 256) : S200000x256.Idx := fun a => match a with
  | ⟨0, _⟩ => ⟨(j 0).val, (j 0).isLt⟩
  | ⟨1, _⟩ => ⟨k.val, k.isLt⟩

/-- The column of row-wise inner products of two 200000 × 256 arrays: at row r, ∑ₖ a(r, k) · b(r, k). -/
def rowDots (a b : FVec Ideal S200000x256 .f32) : FVec Ideal S200000x1 .f32 :=
  fun j => ∑ k : Fin 256, a (rowChan j k) * b (rowChan j k)

/-- The zero offsets of a whole-block rectangle, however spelt. -/
theorem zeroOffsets : (![0, 0] : Fin 2 → Nat) = fun _ => 0 := funext fun a => by fin_cases a <;> rfl

/-- The body's arithmetic at row p of a block: the two casts of a shape to itself drop, the column view reads the
    vector of row sums at p, and the row sum of the entrywise product is the sum over the 256 channels. -/
theorem payload_row (x0 x1 : Vec Ideal S5000x256 .f32) (p : Fin 5000) (u : Fin 1) :
    k2_pay1 (F := Ideal) x0 x1 (ValueIdx.ix2 p u)
      = ∑ k : Fin 256, (x0 (ValueIdx.ix2 p k) : EReal) * (x1 (ValueIdx.ix2 p k) : EReal) := by
  unfold k2_pay1
  dsimp only
  rw [shapeCast_self, shapeCast_self]
  refine (Cert.Columns.shapeCast_a_a1_apply _ _ p u).trans ?_
  refine (Cert.Columns.multiReduction_add_row _ _ _ _ p).trans ?_
  rfl

/-- The same at any position of the 5000 × 1 block, its row named by the position's first coordinate. -/
theorem payload_at (x0 x1 : Vec Ideal S5000x256 .f32) (y : S5000x1.Idx) :
    k2_pay1 (F := Ideal) x0 x1 y
      = ∑ k : Fin 256, (x0 (ValueIdx.ix2 (⟨(y 0).val, (y 0).isLt⟩ : Fin 5000) k) : EReal)
          * (x1 (ValueIdx.ix2 (⟨(y 0).val, (y 0).isLt⟩ : Fin 5000) k) : EReal) := by
  obtain ⟨p, u, rfl⟩ : ∃ (p : Fin 5000) (u : Fin 1), y = ValueIdx.ix2 p u := ⟨y 0, y 1, ValueIdx.eq_ix2 y⟩
  exact payload_row x0 x1 p u

/-- The printed index maps, decided over the forty points: point t takes block (t, 0) of each of the three arrays. -/
theorem blockIndex : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the column of row-wise inner products of the two whole arrays: position
    (p, 0) of the block is row 5000·t + p of the column, and entry (p, k) of either input block is entry
    (5000·t + p, k) of its array. -/
theorem flushed_rowDots (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (rowDots (V c main_v73) (V c main_v82)) := by
  show (cfg2.win 2).cut (grid2.coords t) ((dat2 V c).after 2 t) = _
  rw [after2_2]
  unfold out2_2
  rw [View.canon_unit_zero zeroOffsets]
  simp only [View.ld_unit_zero (S := S5000x256) zeroOffsets]
  obtain ⟨e00, e01, e10, e11, e20, e21⟩ := blockIndex t
  funext j
  show k2_pay1 (F := Ideal) (iblk2 V c 0 t) (iblk2 V c 1 t) j
    = rowDots (V c main_v73) (V c main_v82) (((cfg2.win 2).blk t).view.emb j)
  refine (payload_at (iblk2 V c 0 t) (iblk2 V c 1 t) j).trans ?_
  unfold rowDots
  refine Finset.sum_congr rfl fun k _ => ?_
  have h0 : (iblk2 V c 0 t : Vec Ideal S5000x256 .f32) (ValueIdx.ix2 (⟨(j 0).val, (j 0).isLt⟩ : Fin 5000) k)
      = (V c main_v73 : FVec Ideal S200000x256 .f32) (rowChan (((cfg2.win 2).blk t).view.emb j) k) := by
    show (V c main_v73 : FVec Ideal S200000x256 .f32) (((cfg2.win 0).blk t).view.emb (ValueIdx.ix2 (⟨(j 0).val, (j 0).isLt⟩ : Fin 5000) k)) = _
    refine congrArg _ (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 256 + 1 * k.val = k.val
      omega
  have h1 : (iblk2 V c 1 t : Vec Ideal S5000x256 .f32) (ValueIdx.ix2 (⟨(j 0).val, (j 0).isLt⟩ : Fin 5000) k)
      = (V c main_v82 : FVec Ideal S200000x256 .f32) (rowChan (((cfg2.win 2).blk t).view.emb j) k) := by
    show (V c main_v82 : FVec Ideal S200000x256 .f32) (((cfg2.win 1).blk t).view.emb (ValueIdx.ix2 (⟨(j 0).val, (j 0).isLt⟩ : Fin 5000) k)) = _
    refine congrArg _ (funext fun a => Fin.ext ?_)
    match a with
    | ⟨0, _⟩ =>
      show win2_1.index t (0 : Fin 2) * 5000 + 1 * (j 0).val = win2_2.index t (0 : Fin 2) * 5000 + 1 * (j 0).val
      omega
    | ⟨1, _⟩ =>
      show win2_1.index t (1 : Fin 2) * 256 + 1 * k.val = k.val
      omega
  rw [h0, h1]

/-- A row of the column is in point t's block iff each coordinate is in the block's range on its axis. -/
theorem mem_block2 (t : Fin cfg2.N) (i : S200000x1.Idx) :
    i ∈ ((cfg2.win 2).blk t).view.set
      ↔ ∀ a : Fin 2, win2_2.index t a * S5000x1.size a ≤ (i a).val
          ∧ (i a).val < win2_2.index t a * S5000x1.size a + S5000x1.size a := by
  show i ∈ ((View.whole main_v83).slice (win2_2.rect t)).set ↔ _
  rw [View.set_slice_whole, Rect.mem_set_unit]
  exact Iff.rfl

/-- The forty blocks tile the column: row r is in the block of point r / 5000. -/
theorem covered (i : S200000x1.Idx) :
    ∃ t : Fin cfg2.N, (cfg2.win 2).flush t = true ∧ i ∈ ((cfg2.win 2).blk t).view.set := by
  have hi0 : (i 0).val < 200000 := (i 0).isLt
  have hi1 : (i 1).val < 1 := (i 1).isLt
  have hN : cfg2.N = 40 := N_2
  let t : Fin cfg2.N := ⟨(i 0).val / 5000, by rw [hN]; omega⟩
  have ht : t.val = (i 0).val / 5000 := rfl
  obtain ⟨-, -, -, -, e20, e21⟩ := blockIndex t
  refine ⟨t, flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 1 ≤ (i 1).val ∧ (i 1).val < win2_2.index t (1 : Fin 2) * 1 + 1
    omega

/-- Region 2's output column after its run holds, at each row, the inner product over the 256 channels of that row
    of the two arrays the region finds at its operands. -/
theorem arr2 (V : (c : Dev nD) → (b : Ref sig .tc) → Buf (Elt Ideal) ((c : Thread nD τ).loc b)) (c : Dev nD) :
    @Eq (FVec Ideal S200000x1 .f32) ((dat2 (F := Ideal) V c).arrAt 2 cfg2.N) (rowDots (V c main_v73) (V c main_v82)) :=
  (dat2 (F := Ideal) V c).arrAt_eq_of_cover 2 (rowDots (V c main_v73) (V c main_v82))
    (fun t _ => flushed_rowDots V c t) covered

end Cert.KernelIdeal.Val

end
-- ==== Proof.Thread.lean ====
/-
  The kernel program's result as a function of its arguments.

  @main is ten stretches: host operations, the first dense product (a pipelined region), host operations (the first
  graph convolution's gather, scaling, scatter-add, bias and the rectifier), the second dense product (a region), host
  operations (the second convolution and the two gathers of edge endpoints), the edge scores (a region), and a final
  reshape.  The buffer contents at each boundary are a fold through these stretches from the launch memory.  Here the
  fold is read back, boundary by boundary, at the few buffers that cross a boundary: each holds the value the reference
  program computes for the buffer of the same name (its stage function of the arguments), because every host stretch
  applies the same operations as the reference to equal operands, each dense region leaves the whole matrix product the
  reference's `dot_general` computes, and the last region leaves the column of row-wise inner products that the
  reference's entrywise product followed by a sum over the channel axis computes.  The only arithmetic law used is
  0 + s = s for the reference's sum started at zero.
-/
import proofs.«162515_j41781441855493_1_alg».proof.Proof.Gen.KernelIdeal.Frame
import proofs.«162515_j41781441855493_1_alg».proof.Proof.RefRead
import proofs.«162515_j41781441855493_1_alg».proof.Proof.Mm0
import proofs.«162515_j41781441855493_1_alg».proof.Proof.Mm1
import proofs.«162515_j41781441855493_1_alg».proof.Proof.Dec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.ReadP
open scoped BigOperators

/-! ## The host stretches, for any float family

Each stretch of host operations is read from an arbitrary valuation `Wv` of the buffers at its start, under hypotheses
naming what `Wv` holds at the few buffers the stretch reads; the value left in a buffer the stretch writes is then the
reference's stage function of the same name, and a buffer it does not write keeps its contents.  Stated for any float
family: nothing here computes with a float. -/

section Stretches

variable {F : FTy → Type} [FloatOps F]

variable (Wv : Valuation τ sig (Elt F))

/-- The three long stretches, from the contents `Wv` at their start. -/
abbrev afterA : Valuation τ sig (Elt F) := after hostOps0_2 (after hostOps0_1 (after hostOps0 Wv))
abbrev afterB : Valuation τ sig (Elt F) := after hostOps1_1 (after hostOps1 Wv)
abbrev afterC : Valuation τ sig (Elt F) := after hostOps2 Wv

/-- Reads the operations that one simplification pass leaves unread (those inside a concatenation's list of operands):
    each operation's result at its own buffer is its function's value, at another buffer what was there. -/
macro "read_operands" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- Reads every operation's result of the stretches in the goal, and drops the casts between a buffer's contents and a
    called function's typed view of them. -/
macro "host_results" : tactic =>
  `(tactic| ((dsimp only [afterA, afterB, afterC, hostOps0, hostOps0_1, hostOps0_2, hostOps1, hostOps1_1, hostOps2, hostOps3]
              after_results_simp) <;> read_operands <;> (try simp only [TRef.ofBuf, TRef.toBuf, cast_eq])))

/-! ### From the launch to the first dense product: the edge lists with self loops and the normalisation -/

theorem afterA_v3 (x1 : Vec F Cert.ReferenceIdeal.S2x800000 .i32) (h1 : @Eq (Vec F Cert.ReferenceIdeal.S2x800000 .i32) (Wv (Proc.devRef .tc main_arg1)) x1) :
    @Eq (Vec F Cert.ReferenceIdeal.S850000 .i32) (afterA Wv (Proc.devRef .tc main_v3)) (val_main_v3 (F := F) x1) := by
  subst h1; host_results <;> rfl
theorem afterA_v6 (x1 : Vec F Cert.ReferenceIdeal.S2x800000 .i32) (h1 : @Eq (Vec F Cert.ReferenceIdeal.S2x800000 .i32) (Wv (Proc.devRef .tc main_arg1)) x1) :
    @Eq (Vec F Cert.ReferenceIdeal.S850000 .i32) (afterA Wv (Proc.devRef .tc main_v6)) (val_main_v6 (F := F) x1) := by
  subst h1; host_results <;> rfl
theorem afterA_v29 (x1 : Vec F Cert.ReferenceIdeal.S2x800000 .i32) (h1 : @Eq (Vec F Cert.ReferenceIdeal.S2x800000 .i32) (Wv (Proc.devRef .tc main_arg1)) x1) :
    @Eq (Vec F Cert.ReferenceIdeal.S850000 .f32) (afterA Wv (Proc.devRef .tc main_v29)) (val_main_v29 (F := F) x1) := by
  subst h1; host_results <;> rfl
theorem afterA_arg0 : afterA Wv (Proc.devRef .tc main_arg0) = Wv (Proc.devRef .tc main_arg0) := by host_results <;> rfl
theorem afterA_arg2 : afterA Wv (Proc.devRef .tc main_arg2) = Wv (Proc.devRef .tc main_arg2) := by host_results <;> rfl
theorem afterA_arg3 : afterA Wv (Proc.devRef .tc main_arg3) = Wv (Proc.devRef .tc main_arg3) := by host_results <;> rfl
theorem afterA_arg4 : afterA Wv (Proc.devRef .tc main_arg4) = Wv (Proc.devRef .tc main_arg4) := by host_results <;> rfl
theorem afterA_arg5 : afterA Wv (Proc.devRef .tc main_arg5) = Wv (Proc.devRef .tc main_arg5) := by host_results <;> rfl
theorem afterA_arg6 : afterA Wv (Proc.devRef .tc main_arg6) = Wv (Proc.devRef .tc main_arg6) := by host_results <;> rfl

/-! ### Between the two dense products: the first convolution, rectified -/

theorem afterB_v47 (x0 : Vec F Cert.ReferenceIdeal.S50000x128 .f32) (x1 : Vec F Cert.ReferenceIdeal.S2x800000 .i32) (x3 : Vec F Cert.ReferenceIdeal.S128x256 .f32) (x4 : Vec F Cert.ReferenceIdeal.S256 .f32)
    (h30 : @Eq (Vec F Cert.ReferenceIdeal.S50000x256 .f32) (Wv (Proc.devRef .tc main_v30)) (val_main_v30 (F := F) x0 x3))
    (h3 : @Eq (Vec F Cert.ReferenceIdeal.S850000 .i32) (Wv (Proc.devRef .tc main_v3)) (val_main_v3 (F := F) x1))
    (h6 : @Eq (Vec F Cert.ReferenceIdeal.S850000 .i32) (Wv (Proc.devRef .tc main_v6)) (val_main_v6 (F := F) x1))
    (h29 : @Eq (Vec F Cert.ReferenceIdeal.S850000 .f32) (Wv (Proc.devRef .tc main_v29)) (val_main_v29 (F := F) x1))
    (h4 : @Eq (Vec F Cert.ReferenceIdeal.S256 .f32) (Wv (Proc.devRef .tc main_arg4)) x4) :
    @Eq (Vec F Cert.ReferenceIdeal.S50000x256 .f32) (afterB Wv (Proc.devRef .tc main_v47)) (val_main_v47 (F := F) x0 x1 x3 x4) := by
  host_results
  rw [h30, h3, h6, h29, h4]
  rfl
theorem afterB_v3 : afterB Wv (Proc.devRef .tc main_v3) = Wv (Proc.devRef .tc main_v3) := by host_results <;> rfl
theorem afterB_v6 : afterB Wv (Proc.devRef .tc main_v6) = Wv (Proc.devRef .tc main_v6) := by host_results <;> rfl
theorem afterB_v29 : afterB Wv (Proc.devRef .tc main_v29) = Wv (Proc.devRef .tc main_v29) := by host_results <;> rfl
theorem afterB_arg2 : afterB Wv (Proc.devRef .tc main_arg2) = Wv (Proc.devRef .tc main_arg2) := by host_results <;> rfl
theorem afterB_arg5 : afterB Wv (Proc.devRef .tc main_arg5) = Wv (Proc.devRef .tc main_arg5) := by host_results <;> rfl
theorem afterB_arg6 : afterB Wv (Proc.devRef .tc main_arg6) = Wv (Proc.devRef .tc main_arg6) := by host_results <;> rfl

/-! ### Between the second dense product and the edge scores: the second convolution, gathered at the edges' endpoints -/

section C
variable (x0 : Vec F Cert.ReferenceIdeal.S50000x128 .f32) (x1 : Vec F Cert.ReferenceIdeal.S2x800000 .i32) (x2 : Vec F Cert.ReferenceIdeal.S2x200000 .i32) (x3 : Vec F Cert.ReferenceIdeal.S128x256 .f32)
  (x4 : Vec F Cert.ReferenceIdeal.S256 .f32) (x5 : Vec F Cert.ReferenceIdeal.S256x256 .f32) (x6 : Vec F Cert.ReferenceIdeal.S256 .f32)
  (h48 : @Eq (Vec F Cert.ReferenceIdeal.S50000x256 .f32) (Wv (Proc.devRef .tc main_v48)) (val_main_v48 (F := F) x0 x1 x3 x4 x5))
  (h3 : @Eq (Vec F Cert.ReferenceIdeal.S850000 .i32) (Wv (Proc.devRef .tc main_v3)) (val_main_v3 (F := F) x1))
  (h6 : @Eq (Vec F Cert.ReferenceIdeal.S850000 .i32) (Wv (Proc.devRef .tc main_v6)) (val_main_v6 (F := F) x1))
  (h29 : @Eq (Vec F Cert.ReferenceIdeal.S850000 .f32) (Wv (Proc.devRef .tc main_v29)) (val_main_v29 (F := F) x1))
  (h6' : @Eq (Vec F Cert.ReferenceIdeal.S256 .f32) (Wv (Proc.devRef .tc main_arg6)) x6)
  (h2 : @Eq (Vec F Cert.ReferenceIdeal.S2x200000 .i32) (Wv (Proc.devRef .tc main_arg2)) x2)
include h48 h3 h6 h29 h6' h2

theorem afterC_v73 : @Eq (Vec F Cert.ReferenceIdeal.S200000x256 .f32) (afterC Wv (Proc.devRef .tc main_v73)) (val_main_v73 (F := F) x0 x1 x2 x3 x4 x5 x6) := by
  host_results
  rw [h48, h3, h6, h29, h6', h2]
  rfl
theorem afterC_v82 : @Eq (Vec F Cert.ReferenceIdeal.S200000x256 .f32) (afterC Wv (Proc.devRef .tc main_v82)) (val_main_v82 (F := F) x0 x1 x2 x3 x4 x5 x6) := by
  host_results
  rw [h48, h3, h6, h29, h6', h2]
  rfl
end C

/-! ### After the edge scores: the column as a vector -/

theorem afterD_v84 : @Eq (Vec F Cert.ReferenceIdeal.S200000 .f32) (after hostOps3 Wv (Proc.devRef .tc main_v84))
    (shapeCast S200000 (Wv (Proc.devRef .tc main_v83) : Vec F S200000x1 .f32) shapeCasts_S200000x1_S200000) := by
  host_results <;> rfl

end Stretches

/-! ## The kernel program's boundaries, over the extended reals -/

variable (m : (ℓ : Loc nD τ sig) → Buf (Elt Ideal) ℓ) (ρ : Dev nD → PrngReg) (c : Dev nD)

/-! ### The arguments, typed as the reference's stage functions take them -/

abbrev a0 : Vec Ideal Cert.ReferenceIdeal.S50000x128 .f32 := m ((c : Thread nD τ).loc main_arg0)
abbrev a1 : Vec Ideal Cert.ReferenceIdeal.S2x800000 .i32 := m ((c : Thread nD τ).loc main_arg1)
abbrev a2 : Vec Ideal Cert.ReferenceIdeal.S2x200000 .i32 := m ((c : Thread nD τ).loc main_arg2)
abbrev a3 : Vec Ideal Cert.ReferenceIdeal.S128x256 .f32 := m ((c : Thread nD τ).loc main_arg3)
abbrev a4 : Vec Ideal Cert.ReferenceIdeal.S256 .f32 := m ((c : Thread nD τ).loc main_arg4)
abbrev a5 : Vec Ideal Cert.ReferenceIdeal.S256x256 .f32 := m ((c : Thread nD τ).loc main_arg5)
abbrev a6 : Vec Ideal Cert.ReferenceIdeal.S256 .f32 := m ((c : Thread nD τ).loc main_arg6)

/-! ### The first dense product's entry -/

theorem W3_v3 : @Eq (Vec Ideal Cert.ReferenceIdeal.S850000 .i32) (W3 m ρ c (Proc.devRef .tc main_v3)) (val_main_v3 (F := Ideal) (a1 m c)) :=
  afterA_v3 (W0 m ρ c) (a1 m c) rfl
theorem W3_v6 : @Eq (Vec Ideal Cert.ReferenceIdeal.S850000 .i32) (W3 m ρ c (Proc.devRef .tc main_v6)) (val_main_v6 (F := Ideal) (a1 m c)) :=
  afterA_v6 (W0 m ρ c) (a1 m c) rfl
theorem W3_v29 : @Eq (Vec Ideal Cert.ReferenceIdeal.S850000 .f32) (W3 m ρ c (Proc.devRef .tc main_v29)) (val_main_v29 (F := Ideal) (a1 m c)) :=
  afterA_v29 (W0 m ρ c) (a1 m c) rfl
theorem W3_arg0 : @Eq (Vec Ideal Cert.ReferenceIdeal.S50000x128 .f32) (W3 m ρ c (Proc.devRef .tc main_arg0)) (a0 m c) := afterA_arg0 (W0 m ρ c)
theorem W3_arg2 : @Eq (Vec Ideal Cert.ReferenceIdeal.S2x200000 .i32) (W3 m ρ c (Proc.devRef .tc main_arg2)) (a2 m c) := afterA_arg2 (W0 m ρ c)
theorem W3_arg3 : @Eq (Vec Ideal Cert.ReferenceIdeal.S128x256 .f32) (W3 m ρ c (Proc.devRef .tc main_arg3)) (a3 m c) := afterA_arg3 (W0 m ρ c)
theorem W3_arg4 : @Eq (Vec Ideal Cert.ReferenceIdeal.S256 .f32) (W3 m ρ c (Proc.devRef .tc main_arg4)) (a4 m c) := afterA_arg4 (W0 m ρ c)
theorem W3_arg5 : @Eq (Vec Ideal Cert.ReferenceIdeal.S256x256 .f32) (W3 m ρ c (Proc.devRef .tc main_arg5)) (a5 m c) := afterA_arg5 (W0 m ρ c)
theorem W3_arg6 : @Eq (Vec Ideal Cert.ReferenceIdeal.S256 .f32) (W3 m ρ c (Proc.devRef .tc main_arg6)) (a6 m c) := afterA_arg6 (W0 m ρ c)

/-! ### The first dense product's exit: the product, the rest as entered -/

theorem W4_v30 : @Eq (Vec Ideal Cert.ReferenceIdeal.S50000x256 .f32) (W4 m ρ c (Proc.devRef .tc main_v30)) (val_main_v30 (F := Ideal) (a0 m c) (a3 m c)) := by
  refine (W4_arr m ρ c 2).trans ?_
  refine (arr0 (V3 m ρ) c).trans ?_
  rw [show (V3 m ρ c main_arg0 : FVec Ideal S50000x128 .f32) = a0 m c from W3_arg0 m ρ c,
    show (V3 m ρ c main_arg3 : FVec Ideal S128x256 .f32) = a3 m c from W3_arg3 m ρ c]
  rfl
theorem W4_v3 : @Eq (Vec Ideal Cert.ReferenceIdeal.S850000 .i32) (W4 m ρ c (Proc.devRef .tc main_v3)) (val_main_v3 (F := Ideal) (a1 m c)) :=
  (W4_of_ne m ρ c main_v3 (by decide)).trans (W3_v3 m ρ c)
theorem W4_v6 : @Eq (Vec Ideal Cert.ReferenceIdeal.S850000 .i32) (W4 m ρ c (Proc.devRef .tc main_v6)) (val_main_v6 (F := Ideal) (a1 m c)) :=
  (W4_of_ne m ρ c main_v6 (by decide)).trans (W3_v6 m ρ c)
theorem W4_v29 : @Eq (Vec Ideal Cert.ReferenceIdeal.S850000 .f32) (W4 m ρ c (Proc.devRef .tc main_v29)) (val_main_v29 (F := Ideal) (a1 m c)) :=
  (W4_of_ne m ρ c main_v29 (by decide)).trans (W3_v29 m ρ c)
theorem W4_arg2 : @Eq (Vec Ideal Cert.ReferenceIdeal.S2x200000 .i32) (W4 m ρ c (Proc.devRef .tc main_arg2)) (a2 m c) :=
  (W4_of_ne m ρ c main_arg2 (by decide)).trans (W3_arg2 m ρ c)
theorem W4_arg4 : @Eq (Vec Ideal Cert.ReferenceIdeal.S256 .f32) (W4 m ρ c (Proc.devRef .tc main_arg4)) (a4 m c) :=
  (W4_of_ne m ρ c main_arg4 (by decide)).trans (W3_arg4 m ρ c)
theorem W4_arg5 : @Eq (Vec Ideal Cert.ReferenceIdeal.S256x256 .f32) (W4 m ρ c (Proc.devRef .tc main_arg5)) (a5 m c) :=
  (W4_of_ne m ρ c main_arg5 (by decide)).trans (W3_arg5 m ρ c)
theorem W4_arg6 : @Eq (Vec Ideal Cert.ReferenceIdeal.S256 .f32) (W4 m ρ c (Proc.devRef .tc main_arg6)) (a6 m c) :=
  (W4_of_ne m ρ c main_arg6 (by decide)).trans (W3_arg6 m ρ c)

/-! ### The second dense product's entry -/

theorem W6_v47 : @Eq (Vec Ideal Cert.ReferenceIdeal.S50000x256 .f32) (W6 m ρ c (Proc.devRef .tc main_v47))
    (val_main_v47 (F := Ideal) (a0 m c) (a1 m c) (a3 m c) (a4 m c)) :=
  afterB_v47 (W4 m ρ c) (a0 m c) (a1 m c) (a3 m c) (a4 m c) (W4_v30 m ρ c) (W4_v3 m ρ c) (W4_v6 m ρ c) (W4_v29 m ρ c) (W4_arg4 m ρ c)
theorem W6_v3 : @Eq (Vec Ideal Cert.ReferenceIdeal.S850000 .i32) (W6 m ρ c (Proc.devRef .tc main_v3)) (val_main_v3 (F := Ideal) (a1 m c)) :=
  (afterB_v3 (W4 m ρ c)).trans (W4_v3 m ρ c)
theorem W6_v6 : @Eq (Vec Ideal Cert.ReferenceIdeal.S850000 .i32) (W6 m ρ c (Proc.devRef .tc main_v6)) (val_main_v6 (F := Ideal) (a1 m c)) :=
  (afterB_v6 (W4 m ρ c)).trans (W4_v6 m ρ c)
theorem W6_v29 : @Eq (Vec Ideal Cert.ReferenceIdeal.S850000 .f32) (W6 m ρ c (Proc.devRef .tc main_v29)) (val_main_v29 (F := Ideal) (a1 m c)) :=
  (afterB_v29 (W4 m ρ c)).trans (W4_v29 m ρ c)
theorem W6_arg2 : @Eq (Vec Ideal Cert.ReferenceIdeal.S2x200000 .i32) (W6 m ρ c (Proc.devRef .tc main_arg2)) (a2 m c) :=
  (afterB_arg2 (W4 m ρ c)).trans (W4_arg2 m ρ c)
theorem W6_arg5 : @Eq (Vec Ideal Cert.ReferenceIdeal.S256x256 .f32) (W6 m ρ c (Proc.devRef .tc main_arg5)) (a5 m c) :=
  (afterB_arg5 (W4 m ρ c)).trans (W4_arg5 m ρ c)
theorem W6_arg6 : @Eq (Vec Ideal Cert.ReferenceIdeal.S256 .f32) (W6 m ρ c (Proc.devRef .tc main_arg6)) (a6 m c) :=
  (afterB_arg6 (W4 m ρ c)).trans (W4_arg6 m ρ c)

/-! ### The second dense product's exit: the product, the rest as entered -/

theorem W7_v48 : @Eq (Vec Ideal Cert.ReferenceIdeal.S50000x256 .f32) (W7 m ρ c (Proc.devRef .tc main_v48))
    (val_main_v48 (F := Ideal) (a0 m c) (a1 m c) (a3 m c) (a4 m c) (a5 m c)) := by
  refine (W7_arr m ρ c 2).trans ?_
  refine (arr1 (V6 m ρ) c).trans ?_
  rw [show (V6 m ρ c main_v47 : FVec Ideal S50000x256 .f32) = val_main_v47 (F := Ideal) (a0 m c) (a1 m c) (a3 m c) (a4 m c) from W6_v47 m ρ c,
    show (V6 m ρ c main_arg5 : FVec Ideal S256x256 .f32) = a5 m c from W6_arg5 m ρ c]
  rfl
theorem W7_v3 : @Eq (Vec Ideal Cert.ReferenceIdeal.S850000 .i32) (W7 m ρ c (Proc.devRef .tc main_v3)) (val_main_v3 (F := Ideal) (a1 m c)) :=
  (W7_of_ne m ρ c main_v3 (by decide)).trans (W6_v3 m ρ c)
theorem W7_v6 : @Eq (Vec Ideal Cert.ReferenceIdeal.S850000 .i32) (W7 m ρ c (Proc.devRef .tc main_v6)) (val_main_v6 (F := Ideal) (a1 m c)) :=
  (W7_of_ne m ρ c main_v6 (by decide)).trans (W6_v6 m ρ c)
theorem W7_v29 : @Eq (Vec Ideal Cert.ReferenceIdeal.S850000 .f32) (W7 m ρ c (Proc.devRef .tc main_v29)) (val_main_v29 (F := Ideal) (a1 m c)) :=
  (W7_of_ne m ρ c main_v29 (by decide)).trans (W6_v29 m ρ c)
theorem W7_arg2 : @Eq (Vec Ideal Cert.ReferenceIdeal.S2x200000 .i32) (W7 m ρ c (Proc.devRef .tc main_arg2)) (a2 m c) :=
  (W7_of_ne m ρ c main_arg2 (by decide)).trans (W6_arg2 m ρ c)
theorem W7_arg6 : @Eq (Vec Ideal Cert.ReferenceIdeal.S256 .f32) (W7 m ρ c (Proc.devRef .tc main_arg6)) (a6 m c) :=
  (W7_of_ne m ρ c main_arg6 (by decide)).trans (W6_arg6 m ρ c)

/-! ### The edge scores' entry, exit, and the result -/

theorem W8_v73 : @Eq (Vec Ideal Cert.ReferenceIdeal.S200000x256 .f32) (W8 m ρ c (Proc.devRef .tc main_v73)) (val_main_v73 (F := Ideal) (a0 m c) (a1 m c) (a2 m c) (a3 m c) (a4 m c) (a5 m c) (a6 m c)) :=
  afterC_v73 (W7 m ρ c) (a0 m c) (a1 m c) (a2 m c) (a3 m c) (a4 m c) (a5 m c) (a6 m c) (W7_v48 m ρ c) (W7_v3 m ρ c) (W7_v6 m ρ c) (W7_v29 m ρ c) (W7_arg6 m ρ c) (W7_arg2 m ρ c)
theorem W8_v82 : @Eq (Vec Ideal Cert.ReferenceIdeal.S200000x256 .f32) (W8 m ρ c (Proc.devRef .tc main_v82)) (val_main_v82 (F := Ideal) (a0 m c) (a1 m c) (a2 m c) (a3 m c) (a4 m c) (a5 m c) (a6 m c)) :=
  afterC_v82 (W7 m ρ c) (a0 m c) (a1 m c) (a2 m c) (a3 m c) (a4 m c) (a5 m c) (a6 m c) (W7_v48 m ρ c) (W7_v3 m ρ c) (W7_v6 m ρ c) (W7_v29 m ρ c) (W7_arg6 m ρ c) (W7_arg2 m ρ c)

theorem W9_v83 : @Eq (Vec Ideal S200000x1 .f32) (W9 m ρ c (Proc.devRef .tc main_v83))
    (rowDots (val_main_v73 (F := Ideal) (a0 m c) (a1 m c) (a2 m c) (a3 m c) (a4 m c) (a5 m c) (a6 m c)) (val_main_v82 (F := Ideal) (a0 m c) (a1 m c) (a2 m c) (a3 m c) (a4 m c) (a5 m c) (a6 m c))) := by
  refine (W9_arr m ρ c 2).trans ?_
  refine (arr2 (V8 m ρ) c).trans ?_
  rw [show (V8 m ρ c main_v73 : FVec Ideal S200000x256 .f32) = val_main_v73 (F := Ideal) (a0 m c) (a1 m c) (a2 m c) (a3 m c) (a4 m c) (a5 m c) (a6 m c) from W8_v73 m ρ c,
    show (V8 m ρ c main_v82 : FVec Ideal S200000x256 .f32) = val_main_v82 (F := Ideal) (a0 m c) (a1 m c) (a2 m c) (a3 m c) (a4 m c) (a5 m c) (a6 m c) from W8_v82 m ρ c]

/-- THE RESULT: the last boundary's contents at the result buffer are the reference's result as a function of the
    arguments.  At a row, the kernel's column read through the final reshape is the sum over the channels of the products of
    the two gathered rows; the reference's is zero plus the same sum. -/
theorem W10_v84 : @Eq (Vec Ideal Cert.ReferenceIdeal.S200000 .f32) (W10 m ρ c (Proc.devRef .tc main_v84)) (val_main_v84 (F := Ideal) (a0 m c) (a1 m c) (a2 m c) (a3 m c) (a4 m c) (a5 m c) (a6 m c)) := by
  refine (afterD_v84 (W9 m ρ c)).trans ?_
  rw [W9_v83 m ρ c]
  funext i
  have hi : (i 0).val < 200000 := (i 0).isLt
  rw [val_main_v84_apply, val_main_cst_16_apply]
  refine (shapeCast_apply _ shapeCasts_S200000x1_S200000 i (ValueIdx.ix2 (⟨(i 0).val, hi⟩ : Fin 200000) (0 : Fin 1)) (by
    rw [Shape.rowMajor_val_two, Shape.rowMajor_val_one]
    show (i 0).val * 1 + 0 = (i 0).val
    omega)).trans ?_
  unfold rowDots
  have hz : (FloatOps.ofBits (F := Ideal) .f32 0x00000000#32 : EReal) = 0 := Ideal.ofBits_zero_f32
  rw [hz, zero_add]
  refine Finset.sum_congr rfl fun k _ => ?_
  rw [val_main_v83_apply]
  have e : rowChan (ValueIdx.ix2 (⟨(i 0).val, hi⟩ : Fin 200000) (0 : Fin 1)) k = idx_main_v84 i k :=
    funext fun a => Fin.ext (by match a with | ⟨0, _⟩ => rfl | ⟨1, _⟩ => rfl)
  rw [e]
  rfl

end Cert.KernelIdeal.Val

end
-- ==== Proof.lean ====
/-
  A two-layer graph convolution with a dot-product edge decoder, as three tiled kernels among host operations, against
  the same network written with whole-array operations.

  Both programs build the edge lists with self loops and the symmetric degree normalisation, run
  h ← relu(scatter_add(gather(x·W₁)·norm) + b₁), z ← scatter_add(gather(h·W₂)·norm) + b₂, gather z at the two endpoints of
  every labelled edge, and return the inner product of the two gathered rows.  They differ in three places only: each
  dense product is computed in ten row blocks of 5000 with both operands narrowed to sixteen bits first, and the inner
  products in forty row blocks of 5000, written as a column and reshaped.  Over the extended reals narrowing is the
  identity, a block of a matrix product is the product of the row block with the whole right factor, and the row sum of
  the entrywise product is the reference's entrywise product followed by its sum over the channel axis started at zero.
  Every other operation is the same operation applied to equal operands, so the two results are one function of the
  arguments (the reference's stage function of its last operation), and no finiteness of the inputs is needed.

  The three frames: the two kernel programs' frames are the generated ones; the reference has no kernel, and its frame is
  its run with the result dropped.  The idealisation rewrote nothing, so there is nothing to preserve.
-/
import proofs.«162515_j41781441855493_1_alg».proof.Defs
import proofs.«162515_j41781441855493_1_alg».proof.Proof.Gen.Kernel
import proofs.«162515_j41781441855493_1_alg».proof.Proof.Gen.Kernel.Skeleton
import proofs.«162515_j41781441855493_1_alg».proof.Proof.Gen.Kernel.Launch
import proofs.«162515_j41781441855493_1_alg».proof.Proof.Gen.Kernel.Points
import proofs.«162515_j41781441855493_1_alg».proof.Proof.Gen.Kernel.Frame
import proofs.«162515_j41781441855493_1_alg».proof.Proof.Gen.KernelIdeal
import proofs.«162515_j41781441855493_1_alg».proof.Proof.Gen.KernelIdeal.Skeleton
import proofs.«162515_j41781441855493_1_alg».proof.Proof.Gen.KernelIdeal.Launch
import proofs.«162515_j41781441855493_1_alg».proof.Proof.Gen.KernelIdeal.Points
import proofs.«162515_j41781441855493_1_alg».proof.Proof.Gen.KernelIdeal.Frame
import proofs.«162515_j41781441855493_1_alg».proof.Proof.Gen.ReferenceIdeal
import proofs.«162515_j41781441855493_1_alg».proof.Proof.Gen.Pre_finite_inputs
import proofs.«162515_j41781441855493_1_alg».proof.Proof.RefRun
import proofs.«162515_j41781441855493_1_alg».proof.Proof.RefRead
import proofs.«162515_j41781441855493_1_alg».proof.Proof.KRun
import proofs.«162515_j41781441855493_1_alg».proof.Proof.Thread
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- Both programs end with the result at the reference's last stage function of the arguments: the kernel program by the
    fold through its ten stretches read back, the reference by its run; the arguments agree by hypothesis. -/
theorem algebraic : Cert.algebraic_KernelIdeal_ReferenceIdeal := by
  intro m ρ m' ρ' _ hagree
  refine ⟨fun c => Cert.ReferenceIdeal.ReadP.val_main_v84 (F := Ideal) (Cert.KernelIdeal.Val.a0 m c) (Cert.KernelIdeal.Val.a1 m c) (Cert.KernelIdeal.Val.a2 m c) (Cert.KernelIdeal.Val.a3 m c) (Cert.KernelIdeal.Val.a4 m c) (Cert.KernelIdeal.Val.a5 m c) (Cert.KernelIdeal.Val.a6 m c), ?_, ?_⟩
  · exact (θ_run Cert.KernelIdeal.defs _ _).mono
      (fun r h c => ⟨(h c).1.trans (Cert.KernelIdeal.Val.W10_v84 m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v84_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
